-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S4096x4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S_ : Shape := ⟨0, ![]⟩
abbrev S1024x256 : Shape := ⟨2, ![1024, 256]⟩
abbrev S1024x1024 : Shape := ⟨2, ![1024, 1024]⟩

abbrev nBuf : Space → Nat
  | .hbm => 66
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .bf16⟩
  | .hbm, ⟨55, _⟩ => ⟨S4096x4096, .f32⟩
  | .hbm, ⟨56, _⟩ => ⟨S4096x4096, .f32⟩
  | .hbm, ⟨57, _⟩ => ⟨S4096x4096, .bf16⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .bf16⟩
  | .hbm, ⟨62, _⟩ => ⟨S8192x4096, .bf16⟩
  | .hbm, ⟨63, _⟩ => ⟨S8192x4096, .bf16⟩
  | .hbm, ⟨64, _⟩ => ⟨S8192x4096, .f32⟩
  | .hbm, ⟨65, _⟩ => ⟨S8192x4096, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_cst_8 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_10 : Ref sig .tc := ⟨.hbm, 41, rfl⟩
abbrev main_v21 : Ref sig .tc := ⟨.hbm, 42, rfl⟩
abbrev main_v22 : Ref sig .tc := ⟨.hbm, 43, rfl⟩
abbrev main_cst_11 : Ref sig .tc := ⟨.hbm, 44, rfl⟩
abbrev main_cst_12 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x1024_S1024x1024 : S1024x1024.ShapeCasts S1024x1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .bf16 = 32 ∨ (Rect.block (s := S8192x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x4096.size a
  hwx0_1 : ∀ i : grid0.Coords, EltTy.bits .bf16 = 32 ∨ (Rect.block (s := S8192x4096) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .bf16 = 32 ∨ (Rect.block (s := S4096x4096) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x4096.size a
  hwx0_3 : ∀ i : grid0.Coords, EltTy.bits .bf16 = 32 ∨ (Rect.block (s := S4096x4096) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x4096.size a
  hwx0_4 : ∀ i : grid0.Coords, EltTy.bits .bf16 = 32 ∨ (Rect.block (s := S4096x4096) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v34) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S8192x4096, .f32⟩
  | .hbm, ⟨62, _⟩ => ⟨S4096x4096, .f32⟩
  | .hbm, ⟨63, _⟩ => ⟨S8192x4096, .f32⟩
  | .hbm, ⟨64, _⟩ => ⟨S8192x4096, .f32⟩
  | .hbm, ⟨65, _⟩ => ⟨S4096x4096, .f32⟩
  | .hbm, ⟨66, _⟩ => ⟨S8192x4096, .f32⟩
  | .hbm, ⟨67, _⟩ => ⟨S4096x4096, .f32⟩
  | .hbm, ⟨68, _⟩ => ⟨S8192x4096, .f32⟩
  | .hbm, ⟨69, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_v26 : Ref sig .tc := ⟨.hbm, 47, rfl⟩
abbrev main_cst_11 : Ref sig .tc := ⟨.hbm, 48, rfl⟩
abbrev main_cst_12 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.Finite.lean ====
/-
  What the precondition says. It is the conjunction, over the four inputs, of "every entry's absolute value is below
  +∞". A conjunction that is 1 has every conjunct 1; an all-reduction by `and` that is 1 had a 1 at every entry; and an
  extended real whose absolute value `max x (−x)` is below +∞ is neither +∞ nor −∞: it is a real number.
-/
import proofs.«429819_j73555609911441_3_alg».proof.Proof.Gen.Pre_finite_inputs
import proofs.«429819_j73555609911441_3_alg».proof.Proof.LibRealClosure
import Idealize.ShloMosaic.Lib.ReduceAll
import Idealize.ShloMosaic.Lib.ValueIdx
import Idealize.ShloMosaic.Lib.Affine

noncomputable section

namespace Cert.Pre_finite_inputs.Finite

open Cert.Pre_finite_inputs Idealize.ShloMosaic RealClosure

/-- The scalar shape has one index. -/
instance : Subsingleton S_.Idx := ⟨fun a b => funext fun d => d.elim0⟩

/-- An extended real whose absolute value compares below the pattern of +∞ is a real number. -/
theorem isReal_of_abs_lt (x : EReal)
    (h : FloatOps.cmpf (F := Ideal) (φ := .f32) .olt (FloatOps.hostAbsf (F := Ideal) (φ := .f32) x) (Ideal.ofBits .f32 0x7F800000#32) = 1#1) :
    IsReal x := by
  rw [ofBits_pos_inf_f32] at h
  have h' : max x (-x) < ⊤ := by
    by_contra hc
    have : FloatOps.cmpf (F := Ideal) (φ := .f32) .olt (FloatOps.hostAbsf (F := Ideal) (φ := .f32) x) ⊤ = 0#1 := by
      show BitVec.ofBool (decide (max x (-x) < ⊤)) = 0#1
      simp [hc]
    rw [this] at h
    exact absurd h (by decide)
  refine isReal_of_ne ?_ ?_
  · intro hx; rw [hx] at h'; simp at h'
  · intro hx; rw [hx] at h'; simp at h'

/-- Under the precondition every entry of every input is a real number. -/
theorem finite_of_pre (x0 x1 : FVec Ideal S8192x4096 .f32) (x2 x3 : FVec Ideal S4096x4096 .f32)
    (h : fn (F := Ideal) x0 x1 x2 x3 = fun _ => 1#1) :
    (∀ i, IsReal (x0 i)) ∧ (∀ i, IsReal (x1 i)) ∧ (∀ i, IsReal (x2 i)) ∧ (∀ i, IsReal (x3 i)) := by
  have h1 := congrFun h ValueIdx.ix0
  dsimp only [fn, fn_part1] at h1
  obtain ⟨h012, e3⟩ := IntOp.andi_eq_one.1 h1
  obtain ⟨h01, e2⟩ := IntOp.andi_eq_one.1 h012
  obtain ⟨e0, e1⟩ := IntOp.andi_eq_one.1 h01
  exact ⟨fun i => isReal_of_abs_lt _ (Host.reduce_andi_all _ _ _ _ ValueIdx.ix0 e0 i),
    fun i => isReal_of_abs_lt _ (Host.reduce_andi_all _ _ _ _ ValueIdx.ix0 e1 i),
    fun i => isReal_of_abs_lt _ (Host.reduce_andi_all _ _ _ _ ValueIdx.ix0 e2 i),
    fun i => isReal_of_abs_lt _ (Host.reduce_andi_all _ _ _ _ ValueIdx.ix0 e3 i)⟩

end Cert.Pre_finite_inputs.Finite

end
-- ==== Proof.KernelBody.lean ====
/-
  The kernel body's arithmetic at one entry of the output block. Each of its three matrix products contracts the
  COLUMN axis of both operands (an activation block [1024, 256] against a weight block [1024, 256]), so entry (a, b) of a
  product is `Σ_κ x[a,κ] · w[b,κ]` over the block's 256 columns. What the body stores back is what was there plus
  `P1 − P2` (first output) or plus `(P3 − P1) − P2` (second output), with `P1 = xr·Aᵀ`, `P2 = xi·Bᵀ`, `P3 = (xr + xi)·Cᵀ`.
-/
import proofs.«429819_j73555609911441_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The contraction's index maps: rows from the output entry, the column from the summation index -/

theorem lhs_0 (y : S1024x1024.Idx) (q : dot_S1024x256_S1024x256_S1024x1024_1_1_0_0_n_n.contr.Idx) :
    (dot_S1024x256_S1024x256_S1024x1024_1_1_0_0_n_n.lhsIdx y q 0).val = (y 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_1 (y : S1024x1024.Idx) (q : dot_S1024x256_S1024x256_S1024x1024_1_1_0_0_n_n.contr.Idx) :
    (dot_S1024x256_S1024x256_S1024x1024_1_1_0_0_n_n.lhsIdx y q 1).val = (q ⟨0, by decide⟩).val :=
  dot_S1024x256_S1024x256_S1024x1024_1_1_0_0_n_n.lhsIdx_val_of_single rfl y q
theorem rhs_0 (y : S1024x1024.Idx) (q : dot_S1024x256_S1024x256_S1024x1024_1_1_0_0_n_n.contr.Idx) :
    (dot_S1024x256_S1024x256_S1024x1024_1_1_0_0_n_n.rhsIdx y q 0).val = (y 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_1 (y : S1024x1024.Idx) (q : dot_S1024x256_S1024x256_S1024x1024_1_1_0_0_n_n.contr.Idx) :
    (dot_S1024x256_S1024x256_S1024x1024_1_1_0_0_n_n.rhsIdx y q 1).val = (q ⟨0, by decide⟩).val :=
  dot_S1024x256_S1024x256_S1024x1024_1_1_0_0_n_n.rhsIdx_val_of_single rfl y q

/-- A block product into a zero accumulator, at entry `(a, b)`: `Σ_κ L[a,κ] · R[b,κ]`. -/
theorem matmul_at (L R : FVec Ideal S1024x256 .bf16) (a b : Fin 1024) :
    matmul (F := Ideal) dot_S1024x256_S1024x256_S1024x1024_1_1_0_0_n_n none L R (constant (F := Ideal) S1024x1024 .f32 0x00000000#32) (ix2 a b)
      = ∑ κ : Fin 256, L (ix2 a κ) * R (ix2 b κ) := by
  refine (Ideal.matmul_constant_zero_apply dot_S1024x256_S1024x256_S1024x1024_1_1_0_0_n_n none L R (ix2 a b)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 a b) ((contrEquiv1 dot_S1024x256_S1024x256_S1024x1024_1_1_0_0_n_n 256 rfl rfl).symm k) = ix2 a k := funext fun d => Fin.ext (by
    match d with
    | ⟨0, _⟩ => exact lhs_0 _ _
    | ⟨1, _⟩ => exact (lhs_1 _ _).trans hk)
  have er : dot_S1024x256_S1024x256_S1024x1024_1_1_0_0_n_n.rhsIdx (ix2 a b) ((contrEquiv1 dot_S1024x256_S1024x256_S1024x1024_1_1_0_0_n_n 256 rfl rfl).symm k) = ix2 b k := funext fun d => Fin.ext (by
    match d with
    | ⟨0, _⟩ => exact rhs_0 _ _
    | ⟨1, _⟩ => exact (rhs_1 _ _).trans hk)
  rw [el, er]

/-! ## What each store writes, at an entry -/

/-- The first output's store: what was there plus `P1 − P2`. -/
theorem pay7_at (x0 x1 x2 x3 : Vec Ideal S1024x256 .bf16) (acc : Vec Ideal S1024x1024 .f32) (a b : Fin 1024) :
    k0_pay7 (F := Ideal) x0 x1 x2 x3 acc (ix2 a b)
      = acc (ix2 a b) + ((∑ κ : Fin 256, x0 (ix2 a κ) * x2 (ix2 b κ)) - ∑ κ : Fin 256, x1 (ix2 a κ) * x3 (ix2 b κ)) := by
  have e : k0_pay7 (F := Ideal) x0 x1 x2 x3 acc
      = addf (F := Ideal) (φ := .f32) acc (subf (F := Ideal) (φ := .f32) (matmul (F := Ideal) (φ₁ := .bf16) (φ₂ := .bf16) dot_S1024x256_S1024x256_S1024x1024_1_1_0_0_n_n none x0 x2 (constant (F := Ideal) S1024x1024 .f32 0x00000000#32))
          (matmul (F := Ideal) (φ₁ := .bf16) (φ₂ := .bf16) dot_S1024x256_S1024x256_S1024x1024_1_1_0_0_n_n none x1 x3 (constant (F := Ideal) S1024x1024 .f32 0x00000000#32))) := by
    unfold k0_pay7 k0_pay5 k0_pay6 k0_pay3 k0_pay4
    simp only [shapeCast_self]
  refine (congrFun e (ix2 a b)).trans ?_
  exact congrArg (acc (ix2 a b) + ·) (congrArg₂ (· - ·) (matmul_at x0 x2 a b) (matmul_at x1 x3 a b))

/-- The second output's store: what was there plus `(P3 − P1) − P2`, the third product taken of the sum of the two
    activation blocks against the combined weight block. -/
theorem pay8_at (x0 x1 x2 x3 x4 : Vec Ideal S1024x256 .bf16) (acc : Vec Ideal S1024x1024 .f32) (a b : Fin 1024) :
    k0_pay8 (F := Ideal) x0 x1 x2 x3 x4 acc (ix2 a b)
      = acc (ix2 a b) + (((∑ κ : Fin 256, (x0 (ix2 a κ) + x1 (ix2 a κ)) * x4 (ix2 b κ))
          - ∑ κ : Fin 256, x0 (ix2 a κ) * x2 (ix2 b κ)) - ∑ κ : Fin 256, x1 (ix2 a κ) * x3 (ix2 b κ)) := by
  have e : k0_pay8 (F := Ideal) x0 x1 x2 x3 x4 acc
      = addf (F := Ideal) (φ := .f32) acc (subf (F := Ideal) (φ := .f32) (subf (F := Ideal) (φ := .f32)
          (matmul (F := Ideal) (φ₁ := .bf16) (φ₂ := .bf16) dot_S1024x256_S1024x256_S1024x1024_1_1_0_0_n_n none (addf (F := Ideal) (φ := .bf16) x0 x1) x4 (constant (F := Ideal) S1024x1024 .f32 0x00000000#32))
          (matmul (F := Ideal) (φ₁ := .bf16) (φ₂ := .bf16) dot_S1024x256_S1024x256_S1024x1024_1_1_0_0_n_n none x0 x2 (constant (F := Ideal) S1024x1024 .f32 0x00000000#32)))
          (matmul (F := Ideal) (φ₁ := .bf16) (φ₂ := .bf16) dot_S1024x256_S1024x256_S1024x1024_1_1_0_0_n_n none x1 x3 (constant (F := Ideal) S1024x1024 .f32 0x00000000#32))) := by
    unfold k0_pay8 k0_pay5 k0_pay6 k0_pay3 k0_pay4
    simp only [shapeCast_self]
  refine (congrFun e (ix2 a b)).trans ?_
  exact congrArg (acc (ix2 a b) + ·) (congrArg₂ (· - ·)
    (congrArg₂ (· - ·) (matmul_at (addf (F := Ideal) (φ := .bf16) x0 x1) x4 a b) (matmul_at x0 x2 a b)) (matmul_at x1 x3 a b))

/-- The value the body resets each output block to at the first step of a run: zero. -/
theorem pay1_at (y : S1024x1024.Idx) : k0_pay1 (F := Ideal) y = 0 := Ideal.ofBits_zero_f32
theorem pay2_at (y : S1024x1024.Idx) : k0_pay2 (F := Ideal) y = 0 := Ideal.ofBits_zero_f32

end Cert.KernelIdeal.Body

end
-- ==== Proof.KernelBlocks.lean ====
/-
  Where each input block sits in its array. The grid is 8 × 4 × 16, walked with the last axis fastest, so point `t` has
  row-block `t / 64`, column-block `(t / 16) % 4` and contraction step `t % 16`. An activation block is rows
  `1024·(t / 64) …` and columns `256·(t % 16) …` of its array; a weight block is rows `1024·((t / 16) % 4) …` and the same
  columns. Entry `y` of a block is therefore the array's entry at those offsets plus `y`.
-/
import proofs.«429819_j73555609911441_3_alg».proof.Proof.Gen.KernelIdeal.Frame
import Idealize.ShloMosaic.PureOps.Ideal

noncomputable section

namespace Cert.KernelIdeal.Blocks

open Cert.KernelIdeal Cert.KernelIdeal.Gen Idealize.ShloMosaic Idealize.ShloMosaic.TcCoe Idealize.SL.Sem

/-- The printed index maps of the five input windows, decided over the grid's 512 points. -/
theorem idx_facts : ∀ t : Fin cfg0.N,
    ((win0_0.index t (0 : Fin 2) = t.val / 64 ∧ win0_0.index t (1 : Fin 2) = t.val % 16)
    ∧ (win0_1.index t (0 : Fin 2) = t.val / 64 ∧ win0_1.index t (1 : Fin 2) = t.val % 16))
    ∧ (win0_2.index t (0 : Fin 2) = t.val / 16 % 4 ∧ win0_2.index t (1 : Fin 2) = t.val % 16)
    ∧ (win0_3.index t (0 : Fin 2) = t.val / 16 % 4 ∧ win0_3.index t (1 : Fin 2) = t.val % 16)
    ∧ (win0_4.index t (0 : Fin 2) = t.val / 16 % 4 ∧ win0_4.index t (1 : Fin 2) = t.val % 16) :=
  (by decide +kernel : ∀ t : Fin grid0.N, _)

variable (m : (ℓ : Loc nD τ sig) → Buf (Elt Ideal) ℓ)

theorem iblk0_at (c : Dev nD) (t : Fin cfg0.N) (y : S1024x256.Idx) (j : S8192x4096.Idx)
    (h0 : (j 0).val = 1024 * (t.val / 64) + (y 0).val) (h1 : (j 1).val = 256 * (t.val % 16) + (y 1).val) :
    (iblk m c 0 t : Vec Ideal S1024x256 .bf16) y = V m c main_v34 j := by
  have e0 : win0_0.index t (0 : Fin 2) = t.val / 64 := (idx_facts t).1.1.1
  have e1 : win0_0.index t (1 : Fin 2) = t.val % 16 := (idx_facts t).1.1.2
  unfold iblk
  rw [View.read_apply]
  show V m c main_v34 _ = V m c main_v34 j
  refine congrArg _ (funext fun a => Fin.ext ?_)
  match a with
  | ⟨0, _⟩ => show win0_0.index t 0 * 1024 + 1 * (y 0).val = (j 0).val; rw [h0, e0]; omega
  | ⟨1, _⟩ => show win0_0.index t 1 * 256 + 1 * (y 1).val = (j 1).val; rw [h1, e1]; omega

theorem iblk1_at (c : Dev nD) (t : Fin cfg0.N) (y : S1024x256.Idx) (j : S8192x4096.Idx)
    (h0 : (j 0).val = 1024 * (t.val / 64) + (y 0).val) (h1 : (j 1).val = 256 * (t.val % 16) + (y 1).val) :
    (iblk m c 1 t : Vec Ideal S1024x256 .bf16) y = V m c main_v35 j := by
  have e0 : win0_1.index t (0 : Fin 2) = t.val / 64 := (idx_facts t).1.2.1
  have e1 : win0_1.index t (1 : Fin 2) = t.val % 16 := (idx_facts t).1.2.2
  unfold iblk
  rw [View.read_apply]
  show V m c main_v35 _ = V m c main_v35 j
  refine congrArg _ (funext fun a => Fin.ext ?_)
  match a with
  | ⟨0, _⟩ => show win0_1.index t 0 * 1024 + 1 * (y 0).val = (j 0).val; rw [h0, e0]; omega
  | ⟨1, _⟩ => show win0_1.index t 1 * 256 + 1 * (y 1).val = (j 1).val; rw [h1, e1]; omega

theorem iblk2_at (c : Dev nD) (t : Fin cfg0.N) (y : S1024x256.Idx) (j : S4096x4096.Idx)
    (h0 : (j 0).val = 1024 * (t.val / 16 % 4) + (y 0).val) (h1 : (j 1).val = 256 * (t.val % 16) + (y 1).val) :
    (iblk m c 2 t : Vec Ideal S1024x256 .bf16) y = V m c main_v26 j := by
  have e0 : win0_2.index t (0 : Fin 2) = t.val / 16 % 4 := (idx_facts t).2.1.1
  have e1 : win0_2.index t (1 : Fin 2) = t.val % 16 := (idx_facts t).2.1.2
  unfold iblk
  rw [View.read_apply]
  show V m c main_v26 _ = V m c main_v26 j
  refine congrArg _ (funext fun a => Fin.ext ?_)
  match a with
  | ⟨0, _⟩ => show win0_2.index t 0 * 1024 + 1 * (y 0).val = (j 0).val; rw [h0, e0]; omega
  | ⟨1, _⟩ => show win0_2.index t 1 * 256 + 1 * (y 1).val = (j 1).val; rw [h1, e1]; omega

theorem iblk3_at (c : Dev nD) (t : Fin cfg0.N) (y : S1024x256.Idx) (j : S4096x4096.Idx)
    (h0 : (j 0).val = 1024 * (t.val / 16 % 4) + (y 0).val) (h1 : (j 1).val = 256 * (t.val % 16) + (y 1).val) :
    (iblk m c 3 t : Vec Ideal S1024x256 .bf16) y = V m c main_v29 j := by
  have e0 : win0_3.index t (0 : Fin 2) = t.val / 16 % 4 := (idx_facts t).2.2.1.1
  have e1 : win0_3.index t (1 : Fin 2) = t.val % 16 := (idx_facts t).2.2.1.2
  unfold iblk
  rw [View.read_apply]
  show V m c main_v29 _ = V m c main_v29 j
  refine congrArg _ (funext fun a => Fin.ext ?_)
  match a with
  | ⟨0, _⟩ => show win0_3.index t 0 * 1024 + 1 * (y 0).val = (j 0).val; rw [h0, e0]; omega
  | ⟨1, _⟩ => show win0_3.index t 1 * 256 + 1 * (y 1).val = (j 1).val; rw [h1, e1]; omega

theorem iblk4_at (c : Dev nD) (t : Fin cfg0.N) (y : S1024x256.Idx) (j : S4096x4096.Idx)
    (h0 : (j 0).val = 1024 * (t.val / 16 % 4) + (y 0).val) (h1 : (j 1).val = 256 * (t.val % 16) + (y 1).val) :
    (iblk m c 4 t : Vec Ideal S1024x256 .bf16) y = V m c main_v33 j := by
  have e0 : win0_4.index t (0 : Fin 2) = t.val / 16 % 4 := (idx_facts t).2.2.2.1
  have e1 : win0_4.index t (1 : Fin 2) = t.val % 16 := (idx_facts t).2.2.2.2
  unfold iblk
  rw [View.read_apply]
  show V m c main_v33 _ = V m c main_v33 j
  refine congrArg _ (funext fun a => Fin.ext ?_)
  match a with
  | ⟨0, _⟩ => show win0_4.index t 0 * 1024 + 1 * (y 0).val = (j 0).val; rw [h0, e0]; omega
  | ⟨1, _⟩ => show win0_4.index t 1 * 256 + 1 * (y 1).val = (j 1).val; rw [h1, e1]; omega

end Cert.KernelIdeal.Blocks

end
-- ==== Proof.BlockAlgebra.lean ====
/-
  A contraction over 4096 terms cut into 16 blocks of 256, and the identities of real numbers that join a complex
  product accumulated block by block from three real products to the four-product form. With P1 = Σ a·α, P2 = Σ b·β and
  P3 = Σ (a + b)·(α + β) over one block,
      Σ_blocks (P1 − P2)         = Σ a·α − Σ b·β        (the real part),
      Σ_blocks ((P3 − P1) − P2)  = Σ a·β + Σ b·α        (the imaginary part: (a + b)(α + β) − aα − bβ = aβ + bα).
  Both need every term to be a real number: on the extended reals a difference of sums is not the sum of the differences
  once an infinity enters, and the product does not distribute. Beside them: w + (q − w) = q for reals; a value clamped
  between two reals is real whatever it was; the absolute value of a real is real; the values of three bit patterns.
-/
import proofs.«429819_j73555609911441_3_alg».proof.Proof.LibRealClosure
import Mathlib.Logic.Equiv.Fin.Basic
import Mathlib.Algebra.BigOperators.Fin
import Mathlib.Tactic.Ring
import Mathlib.Tactic.NormNum

open scoped BigOperators

namespace KBlock

open RealClosure Idealize.ShloMosaic

/-! ## Sixteen blocks of 256 -/

/-- Term `κ` of block `s`: position `256·s + κ` of the contraction axis. -/
def pos (s : Fin 16) (κ : Fin 256) : Fin 4096 :=
  ⟨256 * s.val + κ.val, by have := s.isLt; have := κ.isLt; omega⟩

theorem pos_val (s : Fin 16) (κ : Fin 256) : (pos s κ).val = 256 * s.val + κ.val := rfl

/-- A sum over the whole axis is the sum over the blocks of the sums inside each block (in any commutative monoid:
    no finiteness is needed to regroup a sum). -/
theorem sum_blocks {β : Type*} [AddCommMonoid β] (f : Fin 4096 → β) :
    ∑ k, f k = ∑ s : Fin 16, ∑ κ : Fin 256, f (pos s κ) := by
  rw [← Equiv.sum_comp (finProdFinEquiv (m := 16) (n := 256)) f, Fintype.sum_prod_type]
  refine Finset.sum_congr rfl fun s _ => Finset.sum_congr rfl fun κ _ => congrArg f (Fin.ext ?_)
  show κ.val + 256 * s.val = 256 * s.val + κ.val
  omega

/-! ## The two identities -/

/-- The real part: over real terms the block-by-block differences add up to the difference of the whole sums. -/
theorem re_law (f g : Fin 4096 → EReal) (hf : ∀ k, IsReal (f k)) (hg : ∀ k, IsReal (g k)) :
    ∑ s : Fin 16, ((∑ κ : Fin 256, f (pos s κ)) - ∑ κ : Fin 256, g (pos s κ)) = (∑ k, f k) - ∑ k, g k := by
  obtain ⟨f', rfl⟩ := exists_real_fun hf
  obtain ⟨g', rfl⟩ := exists_real_fun hg
  simp only [← coe_finset_sum, ← EReal.coe_sub]
  rw [Finset.sum_sub_distrib, ← sum_blocks f', ← sum_blocks g']

/-- The imaginary part: with the third product taken of the sums, `(a + b)(α + β) − aα − bβ = aβ + bα` term by term, and
    the blocks add up as before. -/
theorem im_law (a b α β : Fin 4096 → EReal) (ha : ∀ k, IsReal (a k)) (hb : ∀ k, IsReal (b k))
    (hα : ∀ k, IsReal (α k)) (hβ : ∀ k, IsReal (β k)) :
    ∑ s : Fin 16, (((∑ κ : Fin 256, (a (pos s κ) + b (pos s κ)) * (α (pos s κ) + β (pos s κ)))
        - ∑ κ : Fin 256, a (pos s κ) * α (pos s κ)) - ∑ κ : Fin 256, b (pos s κ) * β (pos s κ))
      = (∑ k, a k * β k) + ∑ k, b k * α k := by
  obtain ⟨a', rfl⟩ := exists_real_fun ha
  obtain ⟨b', rfl⟩ := exists_real_fun hb
  obtain ⟨α', rfl⟩ := exists_real_fun hα
  obtain ⟨β', rfl⟩ := exists_real_fun hβ
  simp only [← EReal.coe_add, ← EReal.coe_mul, ← coe_finset_sum, ← EReal.coe_sub]
  rw [sum_blocks fun k => a' k * β' k, sum_blocks fun k => b' k * α' k, ← Finset.sum_add_distrib]
  refine congrArg _ (Finset.sum_congr rfl fun s _ => ?_)
  rw [← Finset.sum_sub_distrib, ← Finset.sum_sub_distrib, ← Finset.sum_add_distrib]
  exact Finset.sum_congr rfl fun κ _ => by ring

/-! ## Small facts about real values -/

/-- Adding back what was subtracted: for real `w` and `q`, `w + (q − w) = q`. -/
theorem add_sub_cancel_of_isReal {w q : EReal} (hw : IsReal w) (hq : IsReal q) : w + (q - w) = q := by
  obtain ⟨w', rfl⟩ := hw
  obtain ⟨q', rfl⟩ := hq
  rw [← EReal.coe_sub, ← EReal.coe_add]
  exact congrArg _ (by ring)

/-- A value clamped between two reals is real, whatever it was: the clamp of `+∞` is the upper bound, of `−∞` the
    lower one. -/
theorem isReal_clamp {lo hi : EReal} (hlo : IsReal lo) (hhi : IsReal hi) (y : EReal) : IsReal (min hi (max lo y)) := by
  refine isReal_of_ne ?_ ?_
  · have h1 : min hi lo ≤ min hi (max lo y) := min_le_min le_rfl (le_max_left _ _)
    exact (lt_of_lt_of_le (bot_lt_iff_ne_bot.2 (hhi.min hlo).ne_bot) h1).ne'
  · exact (lt_of_le_of_lt (min_le_left _ _) (lt_top_iff_ne_top.2 hhi.ne_top)).ne

/-- The absolute value `max x (−x)` of a real is real. -/
theorem isReal_abs {x : EReal} (hx : IsReal x) : IsReal (max x (-x)) := hx.max hx.neg

/-! ## Three bit patterns -/

/-- `0x4B800000` is `2 ^ 24 = 4096 · 4096`, the number of entries of a weight matrix. -/
theorem ofBits_two_pow_24 : Ideal.ofBits .f32 0x4B800000#32 = ((16777216 : ℝ) : EReal) := by
  simp [Ideal.ofBits, Ideal.ieee, -EReal.coe_mul]; norm_num
/-- `0xBF800000` is `−1`. -/
theorem ofBits_neg_one : Ideal.ofBits .f32 0xBF800000#32 = ((-1 : ℝ) : EReal) := by
  simp [Ideal.ofBits, Ideal.ieee, -EReal.coe_mul, -EReal.coe_neg]; norm_num
/-- `0x3727C5AC`, the floor under the scale, is a real number (which one does not matter here). -/
theorem isReal_ofBits_floor : IsReal (Ideal.ofBits .f32 0x3727C5AC#32) := by
  simp [Ideal.ofBits, Ideal.ieee, -EReal.coe_mul]

/-! ## The complex product, as two arrays of plain sums -/

open Idealize.ShloMosaic.ValueIdx

/-- The real part of `(xr + i·xi)·(A + i·B)ᵀ` at row `p`, column `q`: `Σ_k xr[p,k]·A[q,k] − Σ_k xi[p,k]·B[q,k]`. -/
noncomputable def yRe (xr xi : (⟨2, ![8192, 4096]⟩ : Shape).Idx → EReal) (A B : (⟨2, ![4096, 4096]⟩ : Shape).Idx → EReal)
    (i : (⟨2, ![8192, 4096]⟩ : Shape).Idx) : EReal :=
  (∑ k : Fin 4096, xr (ix2 (i 0) k) * A (ix2 (i 1) k)) - ∑ k : Fin 4096, xi (ix2 (i 0) k) * B (ix2 (i 1) k)

/-- Its imaginary part: `Σ_k xr[p,k]·B[q,k] + Σ_k xi[p,k]·A[q,k]`. -/
noncomputable def yIm (xr xi : (⟨2, ![8192, 4096]⟩ : Shape).Idx → EReal) (A B : (⟨2, ![4096, 4096]⟩ : Shape).Idx → EReal)
    (i : (⟨2, ![8192, 4096]⟩ : Shape).Idx) : EReal :=
  (∑ k : Fin 4096, xr (ix2 (i 0) k) * B (ix2 (i 1) k)) + ∑ k : Fin 4096, xi (ix2 (i 0) k) * A (ix2 (i 1) k)

end KBlock
-- ==== Proof.KernelFold.lean ====
/-
  The kernel's two result arrays as the complex product's plain sums. A run is the 16 consecutive grid points that share
  an output block; the generated value leg gives each result entry as the fold of the run: zero, then at each point what
  was there plus that point's addend. Read at an entry the fold is the sum of the 16 addends; each addend is a
  difference of block products over 256 columns of the arrays' row `p` and row `q`; the 16 blocks tile the 4096 columns.
  For real arrays the blockwise differences then add up to the difference (or, with the third product, the sum) of the
  whole contractions: the two identities of BlockAlgebra.
-/
import proofs.«429819_j73555609911441_3_alg».proof.Proof.Gen.KernelIdeal.Value
import proofs.«429819_j73555609911441_3_alg».proof.Proof.KernelBody
import proofs.«429819_j73555609911441_3_alg».proof.Proof.KernelBlocks
import proofs.«429819_j73555609911441_3_alg».proof.Proof.BlockAlgebra

noncomputable section

namespace Cert.KernelIdeal.Fold

open Cert.KernelIdeal Cert.KernelIdeal.Gen Cert.KernelIdeal.Value Cert.KernelIdeal.Body Cert.KernelIdeal.Blocks
open Idealize.ShloMosaic Idealize.ShloMosaic.TcCoe Idealize.SL.Sem Idealize.ShloMosaic.ValueIdx KBlock RealClosure

variable (m : (ℓ : Loc nD τ sig) → Buf (Elt Ideal) ℓ) (c : Dev nD)

/-! ## The five arrays the region reads, and their blocks at a grid point, as arrays of extended reals -/

abbrev xr : S8192x4096.Idx → EReal := V m c main_v34
abbrev xi : S8192x4096.Idx → EReal := V m c main_v35
abbrev wA : S4096x4096.Idx → EReal := V m c main_v26
abbrev wB : S4096x4096.Idx → EReal := V m c main_v29
abbrev wC : S4096x4096.Idx → EReal := V m c main_v33

abbrev blk0 (n : ℕ) (h : n < cfg0.N) : S1024x256.Idx → EReal := iblk m c 0 ⟨n, h⟩
abbrev blk1 (n : ℕ) (h : n < cfg0.N) : S1024x256.Idx → EReal := iblk m c 1 ⟨n, h⟩
abbrev blk2 (n : ℕ) (h : n < cfg0.N) : S1024x256.Idx → EReal := iblk m c 2 ⟨n, h⟩
abbrev blk3 (n : ℕ) (h : n < cfg0.N) : S1024x256.Idx → EReal := iblk m c 3 ⟨n, h⟩
abbrev blk4 (n : ℕ) (h : n < cfg0.N) : S1024x256.Idx → EReal := iblk m c 4 ⟨n, h⟩

/-! ## One point's addend to each output block -/

/-- Point `n`'s addend to the first output at block entry `(p, q)`: `P1 − P2` of the point's blocks. -/
def add5 (n : ℕ) (p q : Fin 1024) : EReal :=
  if h : n < cfg0.N then
    (∑ κ : Fin 256, blk0 m c n h (ix2 p κ) * blk2 m c n h (ix2 q κ))
      - ∑ κ : Fin 256, blk1 m c n h (ix2 p κ) * blk3 m c n h (ix2 q κ)
  else 0

/-- Point `n`'s addend to the second output: `(P3 − P1) − P2`. -/
def add6 (n : ℕ) (p q : Fin 1024) : EReal :=
  if h : n < cfg0.N then
    ((∑ κ : Fin 256, (blk0 m c n h (ix2 p κ) + blk1 m c n h (ix2 p κ)) * blk4 m c n h (ix2 q κ))
      - ∑ κ : Fin 256, blk0 m c n h (ix2 p κ) * blk2 m c n h (ix2 q κ))
      - ∑ κ : Fin 256, blk1 m c n h (ix2 p κ) * blk3 m c n h (ix2 q κ)
  else 0

/-! ## A run's fold is the sum of its points' addends -/

theorem fold5 (b : ℕ) (h : b + 15 < cfg0.N) (p q : Fin 1024) :
    Pipeline.accAt (reset5 m c) (step5 m c) b 15 h (ix2 p q) = ∑ s ∈ Finset.range 16, add5 m c (b + s) p q := by
  refine (Pipeline.accAt_add_apply (β := EReal) (reset5 m c) (step5 m c) (fun _ => (0 : EReal))
    (fun n y => add5 m c n (y 0) (y 1)) b 15 (fun hb i => ?_) (fun n hn acc i _ _ => ?_) 15 le_rfl h (ix2 p q)).trans (zero_add _)
  · obtain ⟨a, a', rfl⟩ : ∃ a a' : Fin 1024, i = ix2 a a' := ⟨i 0, i 1, eq_ix2 i⟩
    refine (pay7_at (iblk m c 0 ⟨b, hb⟩) (iblk m c 1 ⟨b, hb⟩) (iblk m c 2 ⟨b, hb⟩) (iblk m c 3 ⟨b, hb⟩) (k0_pay1 (F := Ideal)) a a').trans ?_
    rw [pay1_at]
    show _ = 0 + add5 m c b a a'
    unfold add5
    rw [dif_pos hb]
  · obtain ⟨a, a', rfl⟩ : ∃ a a' : Fin 1024, i = ix2 a a' := ⟨i 0, i 1, eq_ix2 i⟩
    refine (pay7_at (iblk m c 0 ⟨n, hn⟩) (iblk m c 1 ⟨n, hn⟩) (iblk m c 2 ⟨n, hn⟩) (iblk m c 3 ⟨n, hn⟩) acc a a').trans ?_
    show _ = acc (ix2 a a') + add5 m c n a a'
    unfold add5
    rw [dif_pos hn]

theorem fold6 (b : ℕ) (h : b + 15 < cfg0.N) (p q : Fin 1024) :
    Pipeline.accAt (reset6 m c) (step6 m c) b 15 h (ix2 p q) = ∑ s ∈ Finset.range 16, add6 m c (b + s) p q := by
  refine (Pipeline.accAt_add_apply (β := EReal) (reset6 m c) (step6 m c) (fun _ => (0 : EReal))
    (fun n y => add6 m c n (y 0) (y 1)) b 15 (fun hb i => ?_) (fun n hn acc i _ _ => ?_) 15 le_rfl h (ix2 p q)).trans (zero_add _)
  · obtain ⟨a, a', rfl⟩ : ∃ a a' : Fin 1024, i = ix2 a a' := ⟨i 0, i 1, eq_ix2 i⟩
    refine (pay8_at (iblk m c 0 ⟨b, hb⟩) (iblk m c 1 ⟨b, hb⟩) (iblk m c 2 ⟨b, hb⟩) (iblk m c 3 ⟨b, hb⟩) (iblk m c 4 ⟨b, hb⟩) (k0_pay2 (F := Ideal)) a a').trans ?_
    rw [pay2_at]
    show _ = 0 + add6 m c b a a'
    unfold add6
    rw [dif_pos hb]
  · obtain ⟨a, a', rfl⟩ : ∃ a a' : Fin 1024, i = ix2 a a' := ⟨i 0, i 1, eq_ix2 i⟩
    refine (pay8_at (iblk m c 0 ⟨n, hn⟩) (iblk m c 1 ⟨n, hn⟩) (iblk m c 2 ⟨n, hn⟩) (iblk m c 3 ⟨n, hn⟩) (iblk m c 4 ⟨n, hn⟩) acc a a').trans ?_
    show _ = acc (ix2 a a') + add6 m c n a a'
    unfold add6
    rw [dif_pos hn]

/-! ## The two results -/

/-- The first result is the real part of the complex product of the region's arrays, when those are real. -/
theorem G5_eq (hxr : ∀ j, IsReal (xr m c j)) (hxi : ∀ j, IsReal (xi m c j)) (hA : ∀ j, IsReal (wA m c j))
    (hB : ∀ j, IsReal (wB m c j)) :
    (G5 m c : S8192x4096.Idx → EReal) = yRe (xr m c) (xi m c) (wA m c) (wB m c) := by
  funext i
  have hi0 : (i 0).val < 8192 := (i 0).isLt
  have hi1 : (i 1).val < 4096 := (i 1).isLt
  have hN : cfg0.N = 512 := N_0
  have hrun : run5Of i = 4 * ((i 0).val / 1024) + (i 1).val / 1024 := by
    show 4 * ((i 0).val / 1024 - 0) + 1 * ((i 1).val / 1024 - 0) = _
    omega
  have hr : 16 * run5Of i + 15 < cfg0.N := by rw [hN, hrun]; omega
  obtain ⟨p, hp⟩ : ∃ p : Fin 1024, p.val = (i 0).val % 1024 := ⟨⟨_, Nat.mod_lt _ (by decide)⟩, rfl⟩
  obtain ⟨q, hq⟩ : ∃ q : Fin 1024, q.val = (i 1).val % 1024 := ⟨⟨_, Nat.mod_lt _ (by decide)⟩, rfl⟩
  have hloc : loc5Of i = ix2 p q := funext fun a => by
    match a with
    | ⟨0, _⟩ => exact Fin.ext hp.symm
    | ⟨1, _⟩ => exact Fin.ext hq.symm
  unfold G5
  rw [dif_pos hr, hloc]
  refine (fold5 m c (16 * run5Of i) hr p q).trans ?_
  rw [Finset.sum_range]
  refine Eq.trans ?_ (re_law (fun k => xr m c (ix2 (i 0) k) * wA m c (ix2 (i 1) k))
    (fun k => xi m c (ix2 (i 0) k) * wB m c (ix2 (i 1) k)) (fun k => (hxr _).mul (hA _)) (fun k => (hxi _).mul (hB _)))
  refine Finset.sum_congr rfl fun s _ => ?_
  have hs : s.val < 16 := s.isLt
  have hn : 16 * run5Of i + s.val < cfg0.N := by rw [hN, hrun]; omega
  have e0 : ∀ κ : Fin 256, blk0 m c _ hn (ix2 p κ) = xr m c (ix2 (i 0) (pos s κ)) := fun κ =>
    iblk0_at m c ⟨_, hn⟩ (ix2 p κ) (ix2 (i 0) (pos s κ))
      (by show (i 0).val = 1024 * ((16 * run5Of i + s.val) / 64) + p.val; rw [hp, hrun]; omega)
      (by show 256 * s.val + κ.val = 256 * ((16 * run5Of i + s.val) % 16) + κ.val; omega)
  have e1 : ∀ κ : Fin 256, blk1 m c _ hn (ix2 p κ) = xi m c (ix2 (i 0) (pos s κ)) := fun κ =>
    iblk1_at m c ⟨_, hn⟩ (ix2 p κ) (ix2 (i 0) (pos s κ))
      (by show (i 0).val = 1024 * ((16 * run5Of i + s.val) / 64) + p.val; rw [hp, hrun]; omega)
      (by show 256 * s.val + κ.val = 256 * ((16 * run5Of i + s.val) % 16) + κ.val; omega)
  have e2 : ∀ κ : Fin 256, blk2 m c _ hn (ix2 q κ) = wA m c (ix2 (i 1) (pos s κ)) := fun κ =>
    iblk2_at m c ⟨_, hn⟩ (ix2 q κ) (ix2 (i 1) (pos s κ))
      (by show (i 1).val = 1024 * ((16 * run5Of i + s.val) / 16 % 4) + q.val; rw [hq, hrun]; omega)
      (by show 256 * s.val + κ.val = 256 * ((16 * run5Of i + s.val) % 16) + κ.val; omega)
  have e3 : ∀ κ : Fin 256, blk3 m c _ hn (ix2 q κ) = wB m c (ix2 (i 1) (pos s κ)) := fun κ =>
    iblk3_at m c ⟨_, hn⟩ (ix2 q κ) (ix2 (i 1) (pos s κ))
      (by show (i 1).val = 1024 * ((16 * run5Of i + s.val) / 16 % 4) + q.val; rw [hq, hrun]; omega)
      (by show 256 * s.val + κ.val = 256 * ((16 * run5Of i + s.val) % 16) + κ.val; omega)
  unfold add5
  rw [dif_pos hn]
  simp only [e0, e1, e2, e3]

/-- The second result is its imaginary part, when moreover the combined weight is the sum of the two weights. -/
theorem G6_eq (hxr : ∀ j, IsReal (xr m c j)) (hxi : ∀ j, IsReal (xi m c j)) (hA : ∀ j, IsReal (wA m c j))
    (hB : ∀ j, IsReal (wB m c j)) (hC : ∀ j, wC m c j = wA m c j + wB m c j) :
    (G6 m c : S8192x4096.Idx → EReal) = yIm (xr m c) (xi m c) (wA m c) (wB m c) := by
  funext i
  have hi0 : (i 0).val < 8192 := (i 0).isLt
  have hi1 : (i 1).val < 4096 := (i 1).isLt
  have hN : cfg0.N = 512 := N_0
  have hrun : run6Of i = 4 * ((i 0).val / 1024) + (i 1).val / 1024 := by
    show 4 * ((i 0).val / 1024 - 0) + 1 * ((i 1).val / 1024 - 0) = _
    omega
  have hr : 16 * run6Of i + 15 < cfg0.N := by rw [hN, hrun]; omega
  obtain ⟨p, hp⟩ : ∃ p : Fin 1024, p.val = (i 0).val % 1024 := ⟨⟨_, Nat.mod_lt _ (by decide)⟩, rfl⟩
  obtain ⟨q, hq⟩ : ∃ q : Fin 1024, q.val = (i 1).val % 1024 := ⟨⟨_, Nat.mod_lt _ (by decide)⟩, rfl⟩
  have hloc : loc6Of i = ix2 p q := funext fun a => by
    match a with
    | ⟨0, _⟩ => exact Fin.ext hp.symm
    | ⟨1, _⟩ => exact Fin.ext hq.symm
  unfold G6
  rw [dif_pos hr, hloc]
  refine (fold6 m c (16 * run6Of i) hr p q).trans ?_
  rw [Finset.sum_range]
  refine Eq.trans ?_ (im_law (fun k => xr m c (ix2 (i 0) k)) (fun k => xi m c (ix2 (i 0) k))
    (fun k => wA m c (ix2 (i 1) k)) (fun k => wB m c (ix2 (i 1) k)) (fun k => hxr _) (fun k => hxi _) (fun k => hA _) (fun k => hB _))
  refine Finset.sum_congr rfl fun s _ => ?_
  have hs : s.val < 16 := s.isLt
  have hn : 16 * run6Of i + s.val < cfg0.N := by rw [hN, hrun]; omega
  have e0 : ∀ κ : Fin 256, blk0 m c _ hn (ix2 p κ) = xr m c (ix2 (i 0) (pos s κ)) := fun κ =>
    iblk0_at m c ⟨_, hn⟩ (ix2 p κ) (ix2 (i 0) (pos s κ))
      (by show (i 0).val = 1024 * ((16 * run6Of i + s.val) / 64) + p.val; rw [hp, hrun]; omega)
      (by show 256 * s.val + κ.val = 256 * ((16 * run6Of i + s.val) % 16) + κ.val; omega)
  have e1 : ∀ κ : Fin 256, blk1 m c _ hn (ix2 p κ) = xi m c (ix2 (i 0) (pos s κ)) := fun κ =>
    iblk1_at m c ⟨_, hn⟩ (ix2 p κ) (ix2 (i 0) (pos s κ))
      (by show (i 0).val = 1024 * ((16 * run6Of i + s.val) / 64) + p.val; rw [hp, hrun]; omega)
      (by show 256 * s.val + κ.val = 256 * ((16 * run6Of i + s.val) % 16) + κ.val; omega)
  have e2 : ∀ κ : Fin 256, blk2 m c _ hn (ix2 q κ) = wA m c (ix2 (i 1) (pos s κ)) := fun κ =>
    iblk2_at m c ⟨_, hn⟩ (ix2 q κ) (ix2 (i 1) (pos s κ))
      (by show (i 1).val = 1024 * ((16 * run6Of i + s.val) / 16 % 4) + q.val; rw [hq, hrun]; omega)
      (by show 256 * s.val + κ.val = 256 * ((16 * run6Of i + s.val) % 16) + κ.val; omega)
  have e3 : ∀ κ : Fin 256, blk3 m c _ hn (ix2 q κ) = wB m c (ix2 (i 1) (pos s κ)) := fun κ =>
    iblk3_at m c ⟨_, hn⟩ (ix2 q κ) (ix2 (i 1) (pos s κ))
      (by show (i 1).val = 1024 * ((16 * run6Of i + s.val) / 16 % 4) + q.val; rw [hq, hrun]; omega)
      (by show 256 * s.val + κ.val = 256 * ((16 * run6Of i + s.val) % 16) + κ.val; omega)
  have e4 : ∀ κ : Fin 256, blk4 m c _ hn (ix2 q κ) = wA m c (ix2 (i 1) (pos s κ)) + wB m c (ix2 (i 1) (pos s κ)) := fun κ =>
    (iblk4_at m c ⟨_, hn⟩ (ix2 q κ) (ix2 (i 1) (pos s κ))
      (by show (i 1).val = 1024 * ((16 * run6Of i + s.val) / 16 % 4) + q.val; rw [hq, hrun]; omega)
      (by show 256 * s.val + κ.val = 256 * ((16 * run6Of i + s.val) % 16) + κ.val; omega)).trans (hC _)
  unfold add6
  rw [dif_pos hn]
  simp only [e0, e1, e2, e3, e4]

end Cert.KernelIdeal.Fold

end
-- ==== Proof.KernelInputs.lean ====
/-
  The five arrays the kernel's region reads, as functions of the program's arguments. The host operations before the
  region change the activations' format only (the identity on extended reals), quantize each weight matrix with the very
  text the reference uses — so each quantized weight is the reference's stage of the corresponding argument —, change
  their format (the identity again), and add the two into the combined weight `C = A + B`.
-/
import proofs.«429819_j73555609911441_3_alg».proof.Proof.Gen.KernelIdeal.Frame
import proofs.«429819_j73555609911441_3_alg».proof.Proof.Gen.ReferenceIdeal.Read
import Idealize.ShloMosaic.Lib.StableHlo.Run

noncomputable section

namespace Cert.KernelIdeal.Inputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The quantized weight of a matrix, as the reference spells it. -/
abbrev quant (W : S4096x4096.Idx → EReal) : S4096x4096.Idx → EReal := Cert.ReferenceIdeal.Read.val_main_v13 (F := Ideal) W

set_option maxRecDepth 8192 in
set_option maxHeartbeats 8000000 in
/-- Window 0 reads the real activations. -/
theorem xr_eq (c : Dev nD) : (V m c main_v34 : S8192x4096.Idx → EReal) = m ((c : Thread nD τ).loc main_arg0) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 8000000 in
/-- Window 1 reads the imaginary activations. -/
theorem xi_eq (c : Dev nD) : (V m c main_v35 : S8192x4096.Idx → EReal) = m ((c : Thread nD τ).loc main_arg1) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 8000000 in
/-- Window 2 reads the quantized real weight. -/
theorem A_eq (c : Dev nD) : (V m c main_v26 : S4096x4096.Idx → EReal) = quant (m ((c : Thread nD τ).loc main_arg2)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 8000000 in
/-- Window 3 reads the quantized imaginary weight. -/
theorem B_eq (c : Dev nD) : (V m c main_v29 : S4096x4096.Idx → EReal) = quant (m ((c : Thread nD τ).loc main_arg3)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 16000000 in
/-- Window 4 reads their sum. -/
theorem C_eq (c : Dev nD) : (V m c main_v33 : S4096x4096.Idx → EReal)
    = fun i => quant (m ((c : Thread nD τ).loc main_arg2)) i + quant (m ((c : Thread nD τ).loc main_arg3)) i := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Inputs

end
-- ==== Proof.QuantReal.lean ====
/-
  The quantized weight is a real array. For a weight matrix `W` of real numbers the scale
  `s = max (Σ|W| / 4096², floor)` is real (a finite sum of reals over a nonzero real, against a real), and the
  quantized weight `Q = clip (round (W / s · 2) / 2, −1, 1) · s` is a value clamped between −1 and 1 — real whatever
  the rounded quotient was — times that scale. So the straight-through form `W + (Q − W)` the reference spells is `Q`.
  The reference quantizes both weight matrices with one text, so the stages of the second are those of the first.
-/
import proofs.«429819_j73555609911441_3_alg».proof.Proof.Gen.ReferenceIdeal.Read
import proofs.«429819_j73555609911441_3_alg».proof.Proof.BlockAlgebra

noncomputable section

namespace Cert.ReferenceIdeal.Quant

open Cert.ReferenceIdeal Cert.ReferenceIdeal.Read Idealize.ShloMosaic RealClosure KBlock

variable (W : (⟨S4096x4096, .f32⟩ : BufTy).Contents (Elt Ideal))

/-- The scale of a real matrix is real. -/
theorem scale_isReal (hW : ∀ i, IsReal (W i)) (j : S_.Idx) : IsReal (val_main_v3 (F := Ideal) W j) := by
  rw [val_main_v3_apply, val_main_v2_apply, val_main_v1_apply]
  have h24 : IsReal (val_main_cst_0 (F := Ideal) j) := ⟨_, ofBits_two_pow_24⟩
  have h24' : val_main_cst_0 (F := Ideal) j ≠ 0 := by
    show Ideal.ofBits .f32 0x4B800000#32 ≠ 0
    rw [ofBits_two_pow_24]
    exact EReal.coe_ne_zero.2 (by norm_num)
  have h0 : ∀ j', IsReal (val_main_cst (F := Ideal) j') := fun _ => isReal_ofBits_zero_f32
  have hfl : IsReal (val_main_cst_1 (F := Ideal) j) := isReal_ofBits_floor
  exact isReal_maximumf (isReal_hostDivf ((h0 _).add (isReal_sum_univ _ fun i => isReal_abs (hW i))) h24 h24') hfl

/-- The quantized weight of a real matrix is real: a clamped value times the scale. -/
theorem quant_isReal (hW : ∀ i, IsReal (W i)) (i : S4096x4096.Idx) : IsReal (val_main_v13 (F := Ideal) W i) := by
  rw [val_main_v13_apply, val_main_v11_apply, val_main_call1_v2_apply, val_main_v12_apply]
  have hlo : IsReal (val_main_call1_v1 (F := Ideal) i) := by
    rw [val_main_call1_v1_apply]; exact ⟨_, ofBits_neg_one⟩
  have hhi : IsReal (val_main_call1_v4 (F := Ideal) i) := by
    rw [val_main_call1_v4_apply]; exact isReal_ofBits_one_f32
  exact isReal_mulf (isReal_clamp hlo hhi _) (scale_isReal W hW _)

/-- For a real matrix the straight-through form `W + (Q − W)` is `Q`. -/
theorem ste_eq (hW : ∀ i, IsReal (W i)) : val_main_v15 (F := Ideal) W = val_main_v13 (F := Ideal) W := by
  funext i
  rw [val_main_v15_apply, val_main_v14_apply]
  exact add_sub_cancel_of_isReal (hW i) (quant_isReal W hW i)

/-- The second matrix's quantized weight is the first's text. -/
theorem v29_eq_v13 : val_main_v29 (F := Ideal) W = val_main_v13 (F := Ideal) W := rfl
/-- … and so is its straight-through form. -/
theorem v31_eq_v15 : val_main_v31 (F := Ideal) W = val_main_v15 (F := Ideal) W := rfl

end Cert.ReferenceIdeal.Quant

end
-- ==== Proof.KernelResult.lean ====
/-
  The kernel's two results as functions of the program's arguments. The region reads the activations as they are and
  the two quantized weights (and their sum); for real arguments all of these are real, so the generated folds are the
  real and imaginary parts of the complex product of the activations with the quantized weights.
-/
import proofs.«429819_j73555609911441_3_alg».proof.Proof.KernelFold
import proofs.«429819_j73555609911441_3_alg».proof.Proof.KernelInputs
import proofs.«429819_j73555609911441_3_alg».proof.Proof.QuantReal

noncomputable section

namespace Cert.KernelIdeal.Result

open Cert.KernelIdeal Cert.KernelIdeal.Gen Cert.KernelIdeal.Value Cert.KernelIdeal.Fold Cert.KernelIdeal.Inputs
open Idealize.ShloMosaic Idealize.ShloMosaic.TcCoe Idealize.SL.Sem KBlock RealClosure

variable (m : (ℓ : Loc nD τ sig) → Buf (Elt Ideal) ℓ) (c : Dev nD)

section
variable (h0 : ∀ i, IsReal ((m ((c : Thread nD τ).loc main_arg0)) i)) (h1 : ∀ i, IsReal ((m ((c : Thread nD τ).loc main_arg1)) i))
  (h2 : ∀ i, IsReal ((m ((c : Thread nD τ).loc main_arg2)) i)) (h3 : ∀ i, IsReal ((m ((c : Thread nD τ).loc main_arg3)) i))
include h0 h1 h2 h3

theorem G5_final : (G5 m c : S8192x4096.Idx → EReal)
    = yRe (m ((c : Thread nD τ).loc main_arg0)) (m ((c : Thread nD τ).loc main_arg1)) (quant (m ((c : Thread nD τ).loc main_arg2))) (quant (m ((c : Thread nD τ).loc main_arg3))) := by
  have exr : xr m c = (m ((c : Thread nD τ).loc main_arg0)) := xr_eq m c
  have exi : xi m c = (m ((c : Thread nD τ).loc main_arg1)) := xi_eq m c
  have eA : wA m c = quant (m ((c : Thread nD τ).loc main_arg2)) := A_eq m c
  have eB : wB m c = quant (m ((c : Thread nD τ).loc main_arg3)) := B_eq m c
  rw [G5_eq m c (fun j => by rw [exr]; exact h0 j) (fun j => by rw [exi]; exact h1 j)
    (fun j => by rw [eA]; exact Cert.ReferenceIdeal.Quant.quant_isReal _ h2 j)
    (fun j => by rw [eB]; exact Cert.ReferenceIdeal.Quant.quant_isReal _ h3 j), exr, exi, eA, eB]

theorem G6_final : (G6 m c : S8192x4096.Idx → EReal)
    = yIm (m ((c : Thread nD τ).loc main_arg0)) (m ((c : Thread nD τ).loc main_arg1)) (quant (m ((c : Thread nD τ).loc main_arg2))) (quant (m ((c : Thread nD τ).loc main_arg3))) := by
  have exr : xr m c = (m ((c : Thread nD τ).loc main_arg0)) := xr_eq m c
  have exi : xi m c = (m ((c : Thread nD τ).loc main_arg1)) := xi_eq m c
  have eA : wA m c = quant (m ((c : Thread nD τ).loc main_arg2)) := A_eq m c
  have eB : wB m c = quant (m ((c : Thread nD τ).loc main_arg3)) := B_eq m c
  have eC : wC m c = fun i => quant (m ((c : Thread nD τ).loc main_arg2)) i + quant (m ((c : Thread nD τ).loc main_arg3)) i := C_eq m c
  rw [G6_eq m c (fun j => by rw [exr]; exact h0 j) (fun j => by rw [exi]; exact h1 j)
    (fun j => by rw [eA]; exact Cert.ReferenceIdeal.Quant.quant_isReal _ h2 j)
    (fun j => by rw [eB]; exact Cert.ReferenceIdeal.Quant.quant_isReal _ h3 j)
    (fun j => by rw [eC, eA, eB]), exr, exi, eA, eB]

end

end Cert.KernelIdeal.Result

end
-- ==== Proof.RefSpec.lean ====
/-
  The reference's two results as plain sums. Each of its four matrix products contracts the activations' column axis
  with the ROW axis of a transposed weight, so entry (p, q) of `x · wᵀ` is `Σ_k x[p,k] · w[q,k]`; the real part is the
  difference of two such products and the imaginary part the sum of the other two. Nothing here needs finiteness:
  the weights enter as whatever arrays the earlier stages left (their straight-through forms).
-/
import proofs.«429819_j73555609911441_3_alg».proof.Proof.Gen.ReferenceIdeal.Read
import proofs.«429819_j73555609911441_3_alg».proof.Proof.BlockAlgebra

noncomputable section

namespace Cert.ReferenceIdeal.Spec

open Cert.ReferenceIdeal Cert.ReferenceIdeal.Read Idealize.ShloMosaic Idealize.ShloMosaic.ValueIdx KBlock

variable (x0 x1 : (⟨S8192x4096, .f32⟩ : BufTy).Contents (Elt Ideal)) (x2 x3 : (⟨S4096x4096, .f32⟩ : BufTy).Contents (Elt Ideal))

/-! The printed index maps, in coordinates: the left factor is read at (p, k); the transposed weight at (k, q) is the
    weight at (q, k). -/

theorem lidx33 (i : S8192x4096.Idx) (k : Fin 4096) : lidx_main_v33 i k = ix2 (i 0) k :=
  funext fun a => by match a with | ⟨0, _⟩ => rfl | ⟨1, _⟩ => rfl
theorem lidx35 (i : S8192x4096.Idx) (k : Fin 4096) : lidx_main_v35 i k = ix2 (i 0) k :=
  funext fun a => by match a with | ⟨0, _⟩ => rfl | ⟨1, _⟩ => rfl
theorem lidx38 (i : S8192x4096.Idx) (k : Fin 4096) : lidx_main_v38 i k = ix2 (i 0) k :=
  funext fun a => by match a with | ⟨0, _⟩ => rfl | ⟨1, _⟩ => rfl
theorem lidx40 (i : S8192x4096.Idx) (k : Fin 4096) : lidx_main_v40 i k = ix2 (i 0) k :=
  funext fun a => by match a with | ⟨0, _⟩ => rfl | ⟨1, _⟩ => rfl
theorem ridx33 (i : S8192x4096.Idx) (k : Fin 4096) : idx_main_v32 (ridx_main_v33 i k) = ix2 (i 1) k :=
  funext fun a => by match a with | ⟨0, _⟩ => rfl | ⟨1, _⟩ => rfl
theorem ridx35 (i : S8192x4096.Idx) (k : Fin 4096) : idx_main_v34 (ridx_main_v35 i k) = ix2 (i 1) k :=
  funext fun a => by match a with | ⟨0, _⟩ => rfl | ⟨1, _⟩ => rfl
theorem ridx38 (i : S8192x4096.Idx) (k : Fin 4096) : idx_main_v37 (ridx_main_v38 i k) = ix2 (i 1) k :=
  funext fun a => by match a with | ⟨0, _⟩ => rfl | ⟨1, _⟩ => rfl
theorem ridx40 (i : S8192x4096.Idx) (k : Fin 4096) : idx_main_v39 (ridx_main_v40 i k) = ix2 (i 1) k :=
  funext fun a => by match a with | ⟨0, _⟩ => rfl | ⟨1, _⟩ => rfl

/-- The first result is the real part over the two straight-through weights. -/
theorem real_part : val_main_v36 (F := Ideal) x0 x1 x2 x3
    = yRe x0 x1 (val_main_v15 (F := Ideal) x2) (val_main_v31 (F := Ideal) x3) := by
  funext i
  rw [val_main_v36_apply, val_main_v33_apply, val_main_v35_apply]
  simp only [val_main_v32_apply, val_main_v34_apply, lidx33, lidx35, ridx33, ridx35]
  rfl

/-- The second result is the imaginary part over the same two weights. -/
theorem imag_part : val_main_v41 (F := Ideal) x0 x1 x2 x3
    = yIm x0 x1 (val_main_v15 (F := Ideal) x2) (val_main_v31 (F := Ideal) x3) := by
  funext i
  rw [val_main_v41_apply, val_main_v38_apply, val_main_v40_apply]
  simp only [val_main_v37_apply, val_main_v39_apply, lidx38, lidx40, ridx38, ridx40]
  rfl

end Cert.ReferenceIdeal.Spec

end
-- ==== Proof.RefResult.lean ====
/-
  The reference's two results over the quantized weights. It multiplies by the straight-through forms `W + (Q − W)`;
  for real weight matrices those are the quantized weights `Q` themselves, and both matrices are quantized by one text.
-/
import proofs.«429819_j73555609911441_3_alg».proof.Proof.RefSpec
import proofs.«429819_j73555609911441_3_alg».proof.Proof.QuantReal

noncomputable section

namespace Cert.ReferenceIdeal.Result

open Cert.ReferenceIdeal Cert.ReferenceIdeal.Read Idealize.ShloMosaic KBlock RealClosure

variable (x0 x1 : (⟨S8192x4096, .f32⟩ : BufTy).Contents (Elt Ideal)) (x2 x3 : (⟨S4096x4096, .f32⟩ : BufTy).Contents (Elt Ideal))
  (h2 : ∀ i, IsReal (x2 i)) (h3 : ∀ i, IsReal (x3 i))
include h2 h3

theorem real_final : val_main_v36 (F := Ideal) x0 x1 x2 x3
    = yRe x0 x1 (val_main_v13 (F := Ideal) x2) (val_main_v13 (F := Ideal) x3) := by
  rw [Spec.real_part, Quant.v31_eq_v15, Quant.ste_eq x2 h2, Quant.ste_eq x3 h3]

theorem imag_final : val_main_v41 (F := Ideal) x0 x1 x2 x3
    = yIm x0 x1 (val_main_v13 (F := Ideal) x2) (val_main_v13 (F := Ideal) x3) := by
  rw [Spec.imag_part, Quant.v31_eq_v15, Quant.ste_eq x2 h2, Quant.ste_eq x3 h3]

end Cert.ReferenceIdeal.Result

end
-- ==== Proof.lean ====
/-
  A complex linear layer with quantized weights: `(xr + i·xi) · (Qr + i·Qi)ᵀ` over [8192, 4096] activations and
  [4096, 4096] weights, `Q = clip (round (W / s · 2) / 2, −1, 1) · s` with the per-matrix scale `s = max (mean |W|, floor)`.

  The reference multiplies by the straight-through forms `W + (Q − W)` and takes four real products:
      real part  xr·Wrᵀ − xi·Wiᵀ,      imaginary part  xr·Wiᵀ + xi·Wrᵀ.
  The kernel quantizes with the same text, forms the combined weight `C = A + B` of `A = Qr`, `B = Qi`, and over a grid of
  8 × 4 output blocks accumulates, in 16 steps of 256 columns each, three products per step:
      real part  Σ_steps (P1 − P2),    imaginary part  Σ_steps ((P3 − P1) − P2),
      P1 = xr·Aᵀ,  P2 = xi·Bᵀ,  P3 = (xr + xi)·Cᵀ  over the step's columns.
  Read on the extended reals (changes of float format are the identity) the two agree whenever every input entry is a
  real number, which is what the precondition says:
    • `W + (Q − W) = Q`, because `W` is real and `Q` — a value clamped into [−1, 1] times a real scale — is real;
    • the 16 column blocks tile the 4096 columns, and sums of real differences are differences of real sums;
    • `(xr + xi)(A + B) − xr·A − xi·B = xr·B + xi·A` term by term.
  Each of the three fails at an infinity, so finiteness is used, through `RealClosure.IsReal`. The kernel's value (the two
  folds over each run of 16 grid points) and the reference's value (its operations composed) are generated; what is
  written here by hand is that both are the two arrays of plain sums `KBlock.yRe`, `KBlock.yIm` of the arguments.
  The idealization rewrote nothing, so the kernel's idealized program is its own text and that conjunct is trivial.
-/
import proofs.«429819_j73555609911441_3_alg».proof.Defs
import proofs.«429819_j73555609911441_3_alg».proof.Proof.Gen.Kernel
import proofs.«429819_j73555609911441_3_alg».proof.Proof.Gen.Kernel.Skeleton
import proofs.«429819_j73555609911441_3_alg».proof.Proof.Gen.Kernel.Launch
import proofs.«429819_j73555609911441_3_alg».proof.Proof.Gen.Kernel.Points
import proofs.«429819_j73555609911441_3_alg».proof.Proof.Gen.Kernel.Frame
import proofs.«429819_j73555609911441_3_alg».proof.Proof.Gen.KernelIdeal
import proofs.«429819_j73555609911441_3_alg».proof.Proof.Gen.KernelIdeal.Skeleton
import proofs.«429819_j73555609911441_3_alg».proof.Proof.Gen.KernelIdeal.Launch
import proofs.«429819_j73555609911441_3_alg».proof.Proof.Gen.KernelIdeal.Points
import proofs.«429819_j73555609911441_3_alg».proof.Proof.Gen.KernelIdeal.Frame
import proofs.«429819_j73555609911441_3_alg».proof.Proof.Gen.ReferenceIdeal
import proofs.«429819_j73555609911441_3_alg».proof.Proof.Gen.KernelIdeal.Value
import proofs.«429819_j73555609911441_3_alg».proof.Proof.Gen.ReferenceIdeal.Run
import proofs.«429819_j73555609911441_3_alg».proof.Proof.Gen.ReferenceIdeal.Read
import proofs.«429819_j73555609911441_3_alg».proof.Proof.Gen.Pre_finite_inputs
import proofs.«429819_j73555609911441_3_alg».proof.Proof.Finite
import proofs.«429819_j73555609911441_3_alg».proof.Proof.KernelResult
import proofs.«429819_j73555609911441_3_alg».proof.Proof.RefResult
import Idealize.ShloMosaic.Adequacy
import Idealize.ShloMosaic.Init

noncomputable section

namespace Cert.Proof

open Idealize.ShloMosaic Idealize.ShloMosaic.TcCoe Idealize.SL.Sem KBlock

/-- The kernel, at the word level, runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From agreeing real arguments both programs end with the real and imaginary parts of the complex product of the
    activations with the two quantized weights. -/
theorem algebraic : Cert.algebraic_KernelIdeal_ReferenceIdeal := by
  intro m ρ m' ρ' hpre hagree
  have hfin := fun c => Cert.Pre_finite_inputs.Finite.finite_of_pre _ _ _ _ (hpre c)
  refine ⟨fun c => yRe (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.ReferenceIdeal.Read.val_main_v13 (F := Ideal) (m ((c.tc : Thread Cert.KernelIdeal.nD Cert.KernelIdeal.τ).loc Cert.KernelIdeal.main_arg2))) (Cert.ReferenceIdeal.Read.val_main_v13 (F := Ideal) (m ((c.tc : Thread Cert.KernelIdeal.nD Cert.KernelIdeal.τ).loc Cert.KernelIdeal.main_arg3))),
    fun c => yIm (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.ReferenceIdeal.Read.val_main_v13 (F := Ideal) (m ((c.tc : Thread Cert.KernelIdeal.nD Cert.KernelIdeal.τ).loc Cert.KernelIdeal.main_arg2))) (Cert.ReferenceIdeal.Read.val_main_v13 (F := Ideal) (m ((c.tc : Thread Cert.KernelIdeal.nD Cert.KernelIdeal.τ).loc Cert.KernelIdeal.main_arg3))),
    ?_, ?_⟩
  · refine (θ_run Cert.KernelIdeal.defs _ _).mono (fun r h c => ?_) (Cert.KernelIdeal.Value.run (F := Ideal) m ρ)
    obtain ⟨h0, h1, h2, h3⟩ := hfin c
    exact ⟨(h c).1.trans (Cert.KernelIdeal.Result.G5_final m c h0 h1 h2 h3),
      (h c).2.1.trans (Cert.KernelIdeal.Result.G6_final m c h0 h1 h2 h3), (h c).2.2⟩
  · refine (θ_run Cert.ReferenceIdeal.defs _ _).mono (fun r h c => ?_) (Cert.ReferenceIdeal.Value.run (F := Ideal) m' ρ')
    obtain ⟨h0, h1, h2, h3⟩ := hfin c
    obtain ⟨a0, a1, a2, a3⟩ := hagree c
    refine ⟨(h c).1.trans ?_, (h c).2.1.trans ?_, (h c).2.2⟩
    · rw [Cert.ReferenceIdeal.Read.val_main_v36_eq, a0, a1, a2, a3]
      exact Cert.ReferenceIdeal.Result.real_final _ _ _ _ h2 h3
    · rw [Cert.ReferenceIdeal.Read.val_main_v41_eq, a0, a1, a2, a3]
      exact Cert.ReferenceIdeal.Result.imag_final _ _ _ _ h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
